-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128 .f32) (main_arg6 : FVec F S128x128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128 .f32) (main_arg6 : FVec F S128x128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 91
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S1x128, .f32⟩
  | .hbm, ⟨90, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .i1⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x128, .f32⟩
  | .hbm, ⟨88, _⟩ => ⟨S1700000x1, .f32⟩
  | .hbm, ⟨89, _⟩ => ⟨S1700000x128, .f32⟩
  | .hbm, ⟨90, _⟩ => ⟨S1700000x128, .f32⟩
  | .hbm, ⟨91, _⟩ => ⟨S_, .f32⟩
  | .hbm, ⟨92, _⟩ => ⟨S100000x128, .f32⟩
  | .hbm, ⟨93, _⟩ => ⟨S1700000x1, .i32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .i1⟩
  | .hbm, ⟨101, _⟩ => ⟨S1x128, .f32⟩
  | .hbm, ⟨102, _⟩ => ⟨S100000x128, .f32⟩
  | .hbm, ⟨103, _⟩ => ⟨S100000x128, .f32⟩
  | .hbm, ⟨104, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Pre.lean ====
/-
  The host operations before the first kernel region are the same in both programs: the source and target index
  vectors with the self loops appended, and the symmetric normalisation of the edge weights (the in-degree by a
  scatter-add, its inverse square root where positive, gathered at both ends of every edge). Here the contents of the
  kernel program's buffers when region 0 is entered are read back, one stretch of host operations at a time, as the
  plain program's own stage functions of the arguments: the two index vectors, the normalisation, and the arguments
  themselves, which no operation writes.
-/
import proofs.«145212_j14860586844771_1_alg».proof.Proof.Gen.KernelIdeal.Frame
import proofs.«145212_j14860586844771_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen
open Cert.ReferenceIdeal.Read

variable (m : (ℓ : Loc nD τ sig) → Buf (Elt Ideal) ℓ) (ρ : Dev nD → PrngReg)

/-! ## After the first stretch: the index vectors, the weights with the self loops' ones, the in-degree's sign and
    inverse square root -/

theorem s0_src (c : Dev nD) : W1 m ρ c (Proc.devRef .tc main_v5) = val_main_v5 (F := Ideal) (m ((c : Thread nD τ).loc main_arg1)) := by
  show StableHlo.after hostOps0 (W0 m ρ c) (Proc.devRef .tc main_v5) = _
  after_results_simp <;> rfl

theorem s0_dst (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp <;> rfl

theorem s0_w (c : Dev nD) : W1 m ρ c (Proc.devRef .tc main_v8) = val_main_v8 (F := Ideal) (m ((c : Thread nD τ).loc main_arg2)) := by
  show StableHlo.after hostOps0 (W0 m ρ c) (Proc.devRef .tc main_v8) = _
  after_results_simp <;> rfl

theorem s0_pos (c : Dev nD) : W1 m ρ c (Proc.devRef .tc main_v13) = val_main_v13 (F := Ideal) (m ((c : Thread nD τ).loc main_arg1)) (m ((c : Thread nD τ).loc main_arg2)) := by
  show StableHlo.after hostOps0 (W0 m ρ c) (Proc.devRef .tc main_v13) = _
  after_results_simp <;> rfl

theorem s0_rsqrt (c : Dev nD) : W1 m ρ c (Proc.devRef .tc main_v14) = val_main_v14 (F := Ideal) (m ((c : Thread nD τ).loc main_arg1)) (m ((c : Thread nD τ).loc main_arg2)) := by
  show StableHlo.after hostOps0 (W0 m ρ c) (Proc.devRef .tc main_v14) = _
  after_results_simp <;> rfl

theorem s0_zero (c : Dev nD) : W1 m ρ c (Proc.devRef .tc main_cst_2) = val_main_cst_2 (F := Ideal) := by
  show StableHlo.after hostOps0 (W0 m ρ c) (Proc.devRef .tc main_cst_2) = _
  after_results_simp <;> rfl

/-! ## After the second stretch (the outlined `where`): the inverse square root kept where the in-degree is positive -/

/-- A typed reference's transport of contents there and back is the identity. -/
theorem ofBuf_toBuf {sig : RefSig} {Val : EltTy → Type} {T : BufTy} (x : TRef sig T) (v : T.Contents Val) : x.ofBuf (x.toBuf v) = v := by
  obtain ⟨r, rfl, _, _⟩ := x
  rfl

/-- At the buffers of the outlined `where` the transport is along the buffer's own type: the identity. -/
theorem ofBuf_v13 (h1 h2 h3) (v : (⟨S100000, .i1⟩ : BufTy).Contents (Elt Ideal)) : (TRef.of (sig := sig) (T := ⟨S100000, .i1⟩) main_v13 h1 h2 h3).ofBuf v = v := rfl
theorem ofBuf_v14 (h1 h2 h3) (v : (⟨S100000, .f32⟩ : BufTy).Contents (Elt Ideal)) : (TRef.of (sig := sig) (T := ⟨S100000, .f32⟩) main_v14 h1 h2 h3).ofBuf v = v := rfl
theorem ofBuf_cst_2 (h1 h2 h3) (v : (⟨S_, .f32⟩ : BufTy).Contents (Elt Ideal)) : (TRef.of (sig := sig) (T := ⟨S_, .f32⟩) main_cst_2 h1 h2 h3).ofBuf v = v := rfl
theorem toBuf_v15 (h1 h2 h3) (v : (⟨S100000, .f32⟩ : BufTy).Contents (Elt Ideal)) : (TRef.of (sig := sig) (T := ⟨S100000, .f32⟩) main_v15 h1 h2 h3).toBuf v = v := rfl

theorem s1_dis (c : Dev nD) : W2 m ρ c (Proc.devRef .tc main_v15) = val_main_v15 (F := Ideal) (m ((c : Thread nD τ).loc main_arg1)) (m ((c : Thread nD τ).loc main_arg2)) := by
  show StableHlo.after hostOps0_1 (W1 m ρ c) (Proc.devRef .tc main_v15) = _
  generalize hW : W1 m ρ c = Wv
  after_results_simp
  subst hW
  rw [s0_pos, s0_rsqrt, s0_zero]
  unfold val_main_v15 val_main_call0_v1 val_main_call0_v0
  rw [toBuf_v15, ofBuf_v13, ofBuf_v14, ofBuf_toBuf, ofBuf_toBuf, ofBuf_cst_2]

theorem s1_src (c : Dev nD) : W2 m ρ c (Proc.devRef .tc main_v5) = val_main_v5 (F := Ideal) (m ((c : Thread nD τ).loc main_arg1)) := by
  show StableHlo.after hostOps0_1 (W1 m ρ c) (Proc.devRef .tc main_v5) = _
  generalize hW : W1 m ρ c = Wv
  after_results_simp
  subst hW
  exact s0_src m ρ c

theorem s1_dst (c : Dev nD) : W2 m ρ c (Proc.devRef .tc main_v6) = val_main_v6 (F := Ideal) (m ((c : Thread nD τ).loc main_arg1)) := by
  show StableHlo.after hostOps0_1 (W1 m ρ c) (Proc.devRef .tc main_v6) = _
  generalize hW : W1 m ρ c = Wv
  after_results_simp
  subst hW
  exact s0_dst m ρ c

theorem s1_w (c : Dev nD) : W2 m ρ c (Proc.devRef .tc main_v8) = val_main_v8 (F := Ideal) (m ((c : Thread nD τ).loc main_arg2)) := by
  show StableHlo.after hostOps0_1 (W1 m ρ c) (Proc.devRef .tc main_v8) = _
  generalize hW : W1 m ρ c = Wv
  after_results_simp
  subst hW
  exact s0_w m ρ c

/-! ## When region 0 is entered -/

/-- The source indices with the self loops appended. -/
theorem entry_src (c : Dev nD) : W3 m ρ c (Proc.devRef .tc main_v5) = val_main_v5 (F := Ideal) (m ((c : Thread nD τ).loc main_arg1)) := by
  show StableHlo.after hostOps0_2 (W2 m ρ c) (Proc.devRef .tc main_v5) = _
  generalize hW : W2 m ρ c = Wv
  after_results_simp
  subst hW
  exact s1_src m ρ c

/-- The target indices with the self loops appended. -/
theorem entry_dst (c : Dev nD) : W3 m ρ c (Proc.devRef .tc main_v6) = val_main_v6 (F := Ideal) (m ((c : Thread nD τ).loc main_arg1)) := by
  show StableHlo.after hostOps0_2 (W2 m ρ c) (Proc.devRef .tc main_v6) = _
  generalize hW : W2 m ρ c = Wv
  after_results_simp
  subst hW
  exact s1_dst m ρ c

/-- The symmetric normalisation of every edge and self loop. -/
theorem entry_norm (c : Dev nD) : W3 m ρ c (Proc.devRef .tc main_v31) = val_main_v31 (F := Ideal) (m ((c : Thread nD τ).loc main_arg1)) (m ((c : Thread nD τ).loc main_arg2)) := by
  show StableHlo.after hostOps0_2 (W2 m ρ c) (Proc.devRef .tc main_v31) = _
  generalize hW : W2 m ρ c = Wv
  after_results_simp
  subst hW
  rw [s1_src, s1_dst, s1_w, s1_dis]
  rfl

/-- An argument array no host operation writes holds its launch contents when region 0 is entered. -/
theorem entry_arg (c : Dev nD) (b : Ref sig .tc)
    (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes) :
    W3 m ρ c (Proc.devRef .tc b) = m ((c : Thread nD τ).loc b) :=
  (StableHlo.after_of_forall_not_mem _ _ h2).trans ((StableHlo.after_of_forall_not_mem _ _ h1).trans (StableHlo.after_of_forall_not_mem _ _ h0))

end Cert.KernelIdeal.Chain

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Region0.lean ====
/-
  Region 0: the first dense layer. Each of the twenty grid points takes 5000 consecutive rows of the node features
  and the whole 128 x 128 weight, narrows both to bf16, and multiplies them on the matrix unit into zeros. Over the
  extended reals narrowing is the identity and the product into zeros is the textbook sum over the contracted index,
  so row r of point t's tile is row 5000 t + r of the plain product of the whole feature matrix with the weight; the
  twenty tiles cover the 100000 rows, hence the output array ends holding that whole product.
-/
import proofs.«145212_j14860586844771_1_alg».proof.Proof.Gen.KernelIdeal.Frame
import proofs.«145212_j14860586844771_1_alg».proof.Proof.Gen.ReferenceIdeal
import proofs.«145212_j14860586844771_1_alg».proof.Proof.LibAffineRows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense0

open Cert.KernelIdeal Cert.KernelIdeal.Gen

/-! ## The two products' dimension numbers are the plain matrix product's -/

theorem tile_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem tile_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem tile_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem tile_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's matrix-unit product contracts the tile's columns with the weight's rows. -/
theorem tile_plain : Cert.Lib.PlainDot (R := 5000) (K := 128) (M := 128) dot_S5000x128_S128x128_S5000x128_1_0_0_1_n_n :=
  ⟨rfl, rfl, tile_l0, tile_l1, tile_r0, tile_r1⟩

theorem whole_l0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem whole_l1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem whole_r0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem whole_r1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The plain program's product contracts the features' columns with the weight's rows. -/
theorem whole_plain : Cert.Lib.PlainDot (R := 100000) (K := 128) (M := 128) Cert.ReferenceIdeal.dot_S100000x128_S128x128_S100000x128_1_0_0_1_n_n :=
  ⟨rfl, rfl, whole_l0, whole_l1, whole_r0, whole_r1⟩

/-! ## One tile against the whole product -/

/-- The product of the whole feature matrix with the weight, as the plain program's one `dot_general`. -/
abbrev prod (X : FVec Ideal S100000x128 .f32) (w : FVec Ideal S128x128 .f32) : FVec Ideal S100000x128 .f32 :=
  Host.dotGeneral Cert.ReferenceIdeal.dot_S100000x128_S128x128_S100000x128_1_0_0_1_n_n none X w

/-- Where row `r` of the tile is row `n` of the features and the tile's weight block is the weight, the body's result
    at `(r, q)` is the whole product at `(n, q)`: both are the sum over `k` of `X (n, k) * w (k, q)`. -/
theorem tile_eq (xb : FVec Ideal S5000x128 .f32) (wb : FVec Ideal S128x128 .f32)
    (X : FVec Ideal S100000x128 .f32) (w : FVec Ideal S128x128 .f32) (r : Fin 5000) (q : Fin 128) (n : Fin 100000)
    (hx : ∀ k : Fin 128, xb (ix2 r k) = X (ix2 n k)) (hw : ∀ k : Fin 128, wb (ix2 k q) = w (ix2 k q)) :
    k0_pay1 (F := Ideal) xb wb (ix2 r q) = prod X w (ix2 n q) := by
  unfold k0_pay1
  refine (Cert.Lib.matmul_zero_apply tile_plain xb wb _ r q).trans ?_
  refine Eq.trans ?_ (Cert.Lib.dotGeneral_apply whole_plain X w n q).symm
  exact Finset.sum_congr rfl fun k _ => by rw [hx k, hw k]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: point `t` takes block row `t` of the features and of the
    output, and the one block of the weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := Nat.lt_of_lt_of_eq t.isLt N_0

/-- The same at any index of the tile and of the array: the rows matched, the column kept. -/
theorem tile_eq_idx (xb : FVec Ideal S5000x128 .f32) (wb : FVec Ideal S128x128 .f32)
    (X : FVec Ideal S100000x128 .f32) (w : FVec Ideal S128x128 .f32) (y : S5000x128.Idx) (i : S100000x128.Idx)
    (hx : ∀ k : Fin 128, xb (ix2 (y 0) k) = X (ix2 (i 0) k)) (hw : ∀ k : Fin 128, wb (ix2 k (y 1)) = w (ix2 k (y 1)))
    (h1 : (i 1).val = (y 1).val) : k0_pay1 (F := Ideal) xb wb y = prod X w i := by
  obtain ⟨r, q, rfl⟩ : ∃ (r : Fin 5000) (q : Fin 128), y = ix2 r q := ⟨y 0, y 1, eq_ix2 y⟩
  obtain ⟨n, q', rfl⟩ : ∃ (n : Fin 100000) (q' : Fin 128), i = ix2 n q' := ⟨i 0, i 1, eq_ix2 i⟩
  have hq : q' = q := Fin.ext h1
  rw [hq]
  exact tile_eq xb wb X w r q n hx hw

/-- WHAT POINT `t` WRITES BACK is block `t` of the whole product of the arrays the region finds. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  have ht := point_lt t
  funext j
  have hj0 : (j 0).val < 5000 := (j 0).isLt
  have hj1 : (j 1).val < 128 := (j 1).isLt
  show k0_pay1 (F := Ideal) (iblk0 V c 0 t) (iblk0 V c 1 t) j = prod (V c main_arg0) (V c main_arg3) (((cfg0.win 2).blk t).view.emb j)
  refine tile_eq_idx (iblk0 V c 0 t) (iblk0 V c 1 t) (V c main_arg0) (V c main_arg3) j (((cfg0.win 2).blk t).view.emb j) (fun k => ?_) (fun k => ?_) ?_
  · show (V c main_arg0 : S100000x128.Idx → EReal) (((cfg0.win 0).blk t).view.emb (ix2 (j 0) k)) = (V c main_arg0 : S100000x128.Idx → EReal) (ix2 (((cfg0.win 2).blk t).view.emb j 0) k)
    refine congrArg (V c main_arg0 : S100000x128.Idx → EReal) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show (V c main_arg3 : S128x128.Idx → EReal) (((cfg0.win 1).blk t).view.emb (ix2 k (j 1))) = (V c main_arg3 : S128x128.Idx → EReal) (ix2 k (j 1))
    refine congrArg (V c main_arg3 : S128x128.Idx → EReal) (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  · show win0_2.index t (1 : Fin 2) * 128 + 1 * (j 1).val = (j 1).val
    omega

/-- An index of the output array is in point `t`'s block iff its row is among the point's 5000 rows. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The twenty blocks cover the array: row `n` is in the block of point `n / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- THE OUTPUT ARRAY after region 0, whatever the region finds in its arrays: the whole product of the features'
    array with the weight's. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Dense0

end
-- ==== Proof.Act.lean ====
/-
  The bias and PReLU step at one entry. The kernel's tile adds the bias row (kept as a [1, 128] block, broadcast down
  the tile's rows) to 5000 rows of the aggregated messages and keeps an entry x where x >= 0, taking slope * x otherwise
  (the slope again a [1, 128] block). The plain program does the same on the whole [100000, 128] array with the bias
  and slope vectors [128] broadcast over the rows. Entry by entry both are
      select (x + b q >= 0) (x + b q) (a q * (x + b q)),
  so row r of a tile is row n of the whole result as soon as row r of the tile's input is row n of the whole input
  and the two [1, 128] blocks hold the two vectors.
-/
import proofs.«145212_j14860586844771_1_alg».proof.Proof.Gen.KernelIdeal.Skeleton
import proofs.«145212_j14860586844771_1_alg».proof.Proof.Gen.ReferenceIdeal
import proofs.«145212_j14860586844771_1_alg».proof.Proof.LibAffineRows
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Act

open Cert.KernelIdeal Cert.KernelIdeal.Gen

/-- Bias and PReLU of a whole [100000, 128] array, spelt with the plain program's operations: the bias and slope
    vectors broadcast over the rows, the comparison against a broadcast zero, the selection. -/
abbrev act (X : FVec Ideal S100000x128 .f32) (b a : FVec Ideal S128 .f32) : FVec Ideal S100000x128 .f32 :=
  select
    (cmpf .oge
      (addf X (broadcastInDim S100000x128 ![0, 1] Cert.ReferenceIdeal.Facts₀.bcast_S1x128_S100000x128_0_1 (broadcastInDim S1x128 ![1] Cert.ReferenceIdeal.Facts₀.bcast_S128_S1x128_1 b)))
      (broadcastInDim S100000x128 ![] Cert.ReferenceIdeal.Facts₀.bcast_S_S100000x128 (constant S_ .f32 0x00000000#32)))
    (addf X (broadcastInDim S100000x128 ![0, 1] Cert.ReferenceIdeal.Facts₀.bcast_S1x128_S100000x128_0_1 (broadcastInDim S1x128 ![1] Cert.ReferenceIdeal.Facts₀.bcast_S128_S1x128_1 b)))
    (mulf (broadcastInDim S100000x128 ![0, 1] Cert.ReferenceIdeal.Facts₀.bcast_S1x128_S100000x128_0_1 (broadcastInDim S1x128 ![1] Cert.ReferenceIdeal.Facts₀.bcast_S128_S1x128_1 a))
      (addf X (broadcastInDim S100000x128 ![0, 1] Cert.ReferenceIdeal.Facts₀.bcast_S1x128_S100000x128_0_1 (broadcastInDim S1x128 ![1] Cert.ReferenceIdeal.Facts₀.bcast_S128_S1x128_1 b))))

/-- One entry of the step: the value kept where it is not negative, the slope's multiple otherwise. -/
def actAt (x b a : EReal) : EReal :=
  Scalar.select (FloatOps.cmpf (F := Ideal) .oge (x + b) (Ideal.ofBits .f32 0x00000000#32)) (x + b) (a * (x + b))

/-- The whole-array step at `(n, q)`. -/
theorem act_apply (X : FVec Ideal S100000x128 .f32) (b a : FVec Ideal S128 .f32) (n : Fin 100000) (q : Fin 128) :
    act X b a (ix2 n q) = actAt (X (ix2 n q)) (b (ix1 q)) (a (ix1 q)) := by
  have hzero : broadcastInDim S100000x128 ![] Cert.ReferenceIdeal.Facts₀.bcast_S_S100000x128 (constant (F := Ideal) S_ .f32 0x00000000#32) (ix2 n q) = Ideal.ofBits .f32 0x00000000#32 :=
    broadcastInDim_apply _ Cert.ReferenceIdeal.Facts₀.bcast_S_S100000x128 _ (ix2 n q) ix0 (fun a => a.elim0)
  unfold act actAt
  rw [select_apply, cmpf_apply, mulf_apply, addf_apply, hzero, Cert.Lib.bias_rows_apply, Cert.Lib.bias_rows_apply]

/-- The tile's step at `(r, q)`, for the body of region 1. -/
theorem tile1_apply (xb : FVec Ideal S5000x128 .f32) (b2 a2 : FVec Ideal S1x128 .f32) (r : Fin 5000) (q : Fin 128) :
    k1_pay1 (F := Ideal) xb b2 a2 (ix2 r q) = actAt (xb (ix2 r q)) (b2 (ix2 (0 : Fin 1) q)) (a2 (ix2 (0 : Fin 1) q)) := by
  unfold k1_pay1 actAt
  rw [select_apply, cmpf_apply, mulf_apply, addf_apply, broadcast_apply, broadcastTo_1b_ab_apply, broadcastTo_1b_ab_apply,
    shapeCast_self, shapeCast_self, shapeCast_self]
  rfl

/-- The tile's step at `(r, q)`, for the body of region 3. -/
theorem tile3_apply (xb : FVec Ideal S5000x128 .f32) (b2 a2 : FVec Ideal S1x128 .f32) (r : Fin 5000) (q : Fin 128) :
    k3_pay1 (F := Ideal) xb b2 a2 (ix2 r q) = actAt (xb (ix2 r q)) (b2 (ix2 (0 : Fin 1) q)) (a2 (ix2 (0 : Fin 1) q)) := by
  unfold k3_pay1 actAt
  rw [select_apply, cmpf_apply, mulf_apply, addf_apply, broadcast_apply, broadcastTo_1b_ab_apply, broadcastTo_1b_ab_apply,
    shapeCast_self, shapeCast_self, shapeCast_self]
  rfl

end Cert.KernelIdeal.Act

end
-- ==== Proof.Region1.lean ====
/-
  Region 1: bias and PReLU after the first aggregation. Each of the twenty grid points takes 5000 consecutive rows of
  the aggregated messages together with the one [1, 128] block of the bias and the one of the slope, and stores
  select (x + b >= 0) (x + b) (a * (x + b)) entry by entry. Row r of point t's tile is therefore row 5000 t + r of the
  same step done on the whole array with the bias and slope vectors broadcast over the rows, provided the two [1, 128]
  arrays the region finds hold those vectors; the twenty tiles cover the 100000 rows.
-/
import proofs.«145212_j14860586844771_1_alg».proof.Proof.Gen.KernelIdeal.Frame
import proofs.«145212_j14860586844771_1_alg».proof.Proof.Act
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Act1

open Cert.KernelIdeal Cert.KernelIdeal.Gen Cert.KernelIdeal.Act

/-- Where the tile's entry at `y` is the whole input's entry at `i`, on the same column, and the two blocks hold the
    bias and slope vectors, the body's result at `y` is the whole step at `i`. -/
theorem tile_eq_idx (xb : FVec Ideal S5000x128 .f32) (b2 a2 : FVec Ideal S1x128 .f32)
    (X : FVec Ideal S100000x128 .f32) (b a : FVec Ideal S128 .f32) (y : S5000x128.Idx) (i : S100000x128.Idx)
    (hx : xb y = X i) (hb : ∀ q : Fin 128, b2 (ix2 (0 : Fin 1) q) = b (ix1 q)) (ha : ∀ q : Fin 128, a2 (ix2 (0 : Fin 1) q) = a (ix1 q))
    (h1 : (i 1).val = (y 1).val) : k1_pay1 (F := Ideal) xb b2 a2 y = act X b a i := by
  obtain ⟨r, q, rfl⟩ : ∃ (r : Fin 5000) (q : Fin 128), y = ix2 r q := ⟨y 0, y 1, eq_ix2 y⟩
  obtain ⟨n, q', rfl⟩ : ∃ (n : Fin 100000) (q' : Fin 128), i = ix2 n q' := ⟨i 0, i 1, eq_ix2 i⟩
  have hq : q' = q := Fin.ext h1
  rw [hq] at hx ⊢
  rw [tile1_apply, act_apply, hx, hb, ha]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: point `t` takes block row `t` of the input and of the output, and
    the one block of the bias and of the slope. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 20 := Nat.lt_of_lt_of_eq t.isLt N_1

/-- WHAT POINT `t` WRITES BACK is block `t` of the whole step on the array the region finds, when the bias and slope
    arrays it finds hold the vectors `b` and `a` in their one row. -/
theorem flushed_eq (b a : FVec Ideal S128 .f32) (c : Dev nD)
    (hb : ∀ q : Fin 128, (V c main_v46 : S1x128.Idx → EReal) (ix2 (0 : Fin 1) q) = b (ix1 q))
    (ha : ∀ q : Fin 128, (V c main_v47 : S1x128.Idx → EReal) (ix2 (0 : Fin 1) q) = a (ix1 q)) (t : Fin cfg1.N) :
    (dat1 V c).flushed 3 t = ((cfg1.win 3).blk t).view.read (Elt Ideal) (act (V c main_v45) b a) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e0, e1, e2, e3, e4, e5, e6, e7⟩ := idx_facts t
  have ht := point_lt t
  funext j
  have hj0 : (j 0).val < 5000 := (j 0).isLt
  have hj1 : (j 1).val < 128 := (j 1).isLt
  show k1_pay1 (F := Ideal) (iblk1 V c 0 t) (iblk1 V c 1 t) (iblk1 V c 2 t) j = act (V c main_v45) b a (((cfg1.win 3).blk t).view.emb j)
  refine tile_eq_idx (iblk1 V c 0 t) (iblk1 V c 1 t) (iblk1 V c 2 t) (V c main_v45) b a j (((cfg1.win 3).blk t).view.emb j) ?_ (fun q => ?_) (fun q => ?_) ?_
  · show (V c main_v45 : S100000x128.Idx → EReal) (((cfg1.win 0).blk t).view.emb j) = (V c main_v45 : S100000x128.Idx → EReal) (((cfg1.win 3).blk t).view.emb j)
    refine congrArg (V c main_v45 : S100000x128.Idx → EReal) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · refine Eq.trans ?_ (hb q)
    show (V c main_v46 : S1x128.Idx → EReal) (((cfg1.win 1).blk t).view.emb (ix2 (0 : Fin 1) q)) = (V c main_v46 : S1x128.Idx → EReal) (ix2 (0 : Fin 1) q)
    refine congrArg (V c main_v46 : S1x128.Idx → EReal) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · refine Eq.trans ?_ (ha q)
    show (V c main_v47 : S1x128.Idx → EReal) (((cfg1.win 2).blk t).view.emb (ix2 (0 : Fin 1) q)) = (V c main_v47 : S1x128.Idx → EReal) (ix2 (0 : Fin 1) q)
    refine congrArg (V c main_v47 : S1x128.Idx → EReal) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show win1_3.index t (1 : Fin 2) * 128 + 1 * (j 1).val = (j 1).val
    omega

/-- An index of the output array is in point `t`'s block iff its row is among the point's 5000 rows. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v48).slice (win1_3.rect t)).set ↔ _
  rw [View.set_slice_whole, Rect.mem_set_unit]
  exact Iff.rfl

/-- The twenty blocks cover the array: row `n` is in the block of point `n / 5000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk]
  obtain ⟨-, -, -, -, -, -, e6, e7⟩ := idx_facts ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
  | ⟨1, _⟩ => show win1_3.index _ (1 : Fin 2) * 128 ≤ (i 1).val ∧ (i 1).val < win1_3.index _ (1 : Fin 2) * 128 + 128; rw [e7]; omega

/-- THE OUTPUT ARRAY after region 1: the whole step on the input array the region finds, with the vectors its bias and
    slope arrays hold. -/
theorem final (b a : FVec Ideal S128 .f32) (c : Dev nD)
    (hb : ∀ q : Fin 128, (V c main_v46 : S1x128.Idx → EReal) (ix2 (0 : Fin 1) q) = b (ix1 q))
    (ha : ∀ q : Fin 128, (V c main_v47 : S1x128.Idx → EReal) (ix2 (0 : Fin 1) q) = a (ix1 q)) :
    (dat1 V c).arrAt 3 cfg1.N = act (V c main_v45) b a :=
  (dat1 V c).arrAt_eq_of_cover 3 (act (V c main_v45) b a) (fun t _ => flushed_eq V b a c hb ha t) cover

end Cert.KernelIdeal.Act1

end
-- ==== Proof.Region2.lean ====
/-
  Region 2: the second dense layer. The twenty grid points each take 5000 consecutive rows of the first layer's
  activations and the whole second weight, narrow both to bf16 and multiply them on the matrix unit into zeros (the
  activations' block passes through a cast to its own shape first, which changes nothing). As in the first layer, row r
  of point t's tile is row 5000 t + r of the plain product of the whole activation matrix with the weight, and the
  twenty tiles cover the 100000 rows.
-/
import proofs.«145212_j14860586844771_1_alg».proof.Proof.Region0

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen Cert.KernelIdeal.Dense0

/-- Where row `r` of the tile is row `n` of the activations and the tile's weight block is the weight, the body's
    result at `(r, q)` is the whole product at `(n, q)`. -/
theorem tile_eq (xb : FVec Ideal S5000x128 .f32) (wb : FVec Ideal S128x128 .f32)
    (X : FVec Ideal S100000x128 .f32) (w : FVec Ideal S128x128 .f32) (r : Fin 5000) (q : Fin 128) (n : Fin 100000)
    (hx : ∀ k : Fin 128, xb (ix2 r k) = X (ix2 n k)) (hw : ∀ k : Fin 128, wb (ix2 k q) = w (ix2 k q)) :
    k2_pay1 (F := Ideal) xb wb (ix2 r q) = prod X w (ix2 n q) := by
  unfold k2_pay1
  refine (Cert.Lib.matmul_zero_apply tile_plain (shapeCast S5000x128 xb shapeCasts_S5000x128_S5000x128) wb _ r q).trans ?_
  refine Eq.trans ?_ (Cert.Lib.dotGeneral_apply whole_plain X w n q).symm
  exact Finset.sum_congr rfl fun k _ => by rw [shapeCast_self, hx k, hw k]

/-- The same at any index of the tile and of the array: the rows matched, the column kept. -/
theorem tile_eq_idx (xb : FVec Ideal S5000x128 .f32) (wb : FVec Ideal S128x128 .f32)
    (X : FVec Ideal S100000x128 .f32) (w : FVec Ideal S128x128 .f32) (y : S5000x128.Idx) (i : S100000x128.Idx)
    (hx : ∀ k : Fin 128, xb (ix2 (y 0) k) = X (ix2 (i 0) k)) (hw : ∀ k : Fin 128, wb (ix2 k (y 1)) = w (ix2 k (y 1)))
    (h1 : (i 1).val = (y 1).val) : k2_pay1 (F := Ideal) xb wb y = prod X w i := by
  obtain ⟨r, q, rfl⟩ : ∃ (r : Fin 5000) (q : Fin 128), y = ix2 r q := ⟨y 0, y 1, eq_ix2 y⟩
  obtain ⟨n, q', rfl⟩ : ∃ (n : Fin 100000) (q' : Fin 128), i = ix2 n q' := ⟨i 0, i 1, eq_ix2 i⟩
  have hq : q' = q := Fin.ext h1
  rw [hq]
  exact tile_eq xb wb X w r q n hx hw

/-! ## From the tiles to the array -/

variable (V : (c : Dev nD) → (b : Ref sig .tc) → Buf (Elt Ideal) ((c : Thread nD τ).loc b))

/-- The printed index maps over the twenty points: point `t` takes block row `t` of the activations and of the
    output, and the one block of the weight. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 20 := Nat.lt_of_lt_of_eq t.isLt N_2

/-- WHAT POINT `t` WRITES BACK is block `t` of the whole product of the arrays the region finds. -/
theorem flushed_eq (c : Dev nD) (t : Fin cfg2.N) :
    (dat2 V c).flushed 2 t = ((cfg2.win 2).blk t).view.read (Elt Ideal) (prod (V c main_v48) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  have ht := point_lt t
  funext j
  have hj0 : (j 0).val < 5000 := (j 0).isLt
  have hj1 : (j 1).val < 128 := (j 1).isLt
  show k2_pay1 (F := Ideal) (iblk2 V c 0 t) (iblk2 V c 1 t) j = prod (V c main_v48) (V c main_arg6) (((cfg2.win 2).blk t).view.emb j)
  refine tile_eq_idx (iblk2 V c 0 t) (iblk2 V c 1 t) (V c main_v48) (V c main_arg6) j (((cfg2.win 2).blk t).view.emb j) (fun k => ?_) (fun k => ?_) ?_
  · show (V c main_v48 : S100000x128.Idx → EReal) (((cfg2.win 0).blk t).view.emb (ix2 (j 0) k)) = (V c main_v48 : S100000x128.Idx → EReal) (ix2 (((cfg2.win 2).blk t).view.emb j 0) k)
    refine congrArg (V c main_v48 : S100000x128.Idx → EReal) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show (V c main_arg6 : S128x128.Idx → EReal) (((cfg2.win 1).blk t).view.emb (ix2 k (j 1))) = (V c main_arg6 : S128x128.Idx → EReal) (ix2 k (j 1))
    refine congrArg (V c main_arg6 : S128x128.Idx → EReal) (funext fun a => Fin.ext ?_)
    match a with
    | ⟨0, _⟩ => show win2_1.index t (0 : Fin 2) * 128 + 1 * k.val = k.val; omega
    | ⟨1, _⟩ => show win2_1.index t (1 : Fin 2) * 128 + 1 * (j 1).val = (j 1).val; omega
  · show win2_2.index t (1 : Fin 2) * 128 + 1 * (j 1).val = (j 1).val
    omega

/-- An index of the output array is in point `t`'s block iff its row is among the point's 5000 rows. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v49).slice (win2_2.rect t)).set ↔ _
  rw [View.set_slice_whole, Rect.mem_set_unit]
  exact Iff.rfl

/-- The twenty blocks cover the array: row `n` is in the block of point `n / 5000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_2 _, ?_⟩
  rw [mem_blk]
  obtain ⟨-, -, -, -, e4, e5⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e5]; omega

/-- THE OUTPUT ARRAY after region 2, whatever the region finds in its arrays: the whole product of the activations'
    array with the weight's. -/
theorem final (c : Dev nD) : (dat2 V c).arrAt 2 cfg2.N = prod (V c main_v48) (V c main_arg6) :=
  (dat2 V c).arrAt_eq_of_cover 2 (prod (V c main_v48) (V c main_arg6)) (fun t _ => flushed_eq V c t) cover

end Cert.KernelIdeal.Dense2

end
-- ==== Proof.Region3.lean ====
/-
  Region 3: bias and PReLU after the second aggregation, the program's result. Each of the twenty grid points takes
  5000 consecutive rows of the second layer's aggregated messages together with the one [1, 128] block of the second
  bias and the one of the second slope, and stores select (x + b >= 0) (x + b) (a * (x + b)) entry by entry. Row r of
  point t's tile is row 5000 t + r of the same step done on the whole array with the two vectors broadcast over the
  rows, provided the two [1, 128] arrays the region finds hold those vectors; the twenty tiles cover the 100000 rows.
-/
import proofs.«145212_j14860586844771_1_alg».proof.Proof.Gen.KernelIdeal.Frame
import proofs.«145212_j14860586844771_1_alg».proof.Proof.Act
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Act3

open Cert.KernelIdeal Cert.KernelIdeal.Gen Cert.KernelIdeal.Act

/-- Where the tile's entry at `y` is the whole input's entry at `i`, on the same column, and the two blocks hold the
    bias and slope vectors, the body's result at `y` is the whole step at `i`. -/
theorem tile_eq_idx (xb : FVec Ideal S5000x128 .f32) (b2 a2 : FVec Ideal S1x128 .f32)
    (X : FVec Ideal S100000x128 .f32) (b a : FVec Ideal S128 .f32) (y : S5000x128.Idx) (i : S100000x128.Idx)
    (hx : xb y = X i) (hb : ∀ q : Fin 128, b2 (ix2 (0 : Fin 1) q) = b (ix1 q)) (ha : ∀ q : Fin 128, a2 (ix2 (0 : Fin 1) q) = a (ix1 q))
    (h1 : (i 1).val = (y 1).val) : k3_pay1 (F := Ideal) xb b2 a2 y = act X b a i := by
  obtain ⟨r, q, rfl⟩ : ∃ (r : Fin 5000) (q : Fin 128), y = ix2 r q := ⟨y 0, y 1, eq_ix2 y⟩
  obtain ⟨n, q', rfl⟩ : ∃ (n : Fin 100000) (q' : Fin 128), i = ix2 n q' := ⟨i 0, i 1, eq_ix2 i⟩
  have hq : q' = q := Fin.ext h1
  rw [hq] at hx ⊢
  rw [tile3_apply, act_apply, hx, hb, ha]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: point `t` takes block row `t` of the input and of the output, and
    the one block of the bias and of the slope. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem point_lt (t : Fin cfg3.N) : t.val < 20 := Nat.lt_of_lt_of_eq t.isLt N_3

/-- WHAT POINT `t` WRITES BACK is block `t` of the whole step on the array the region finds, when the bias and slope
    arrays it finds hold the vectors `b` and `a` in their one row. -/
theorem flushed_eq (b a : FVec Ideal S128 .f32) (c : Dev nD)
    (hb : ∀ q : Fin 128, (V c main_v63 : S1x128.Idx → EReal) (ix2 (0 : Fin 1) q) = b (ix1 q))
    (ha : ∀ q : Fin 128, (V c main_v64 : S1x128.Idx → EReal) (ix2 (0 : Fin 1) q) = a (ix1 q)) (t : Fin cfg3.N) :
    (dat3 V c).flushed 3 t = ((cfg3.win 3).blk t).view.read (Elt Ideal) (act (V c main_v62) b a) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e0, e1, e2, e3, e4, e5, e6, e7⟩ := idx_facts t
  have ht := point_lt t
  funext j
  have hj0 : (j 0).val < 5000 := (j 0).isLt
  have hj1 : (j 1).val < 128 := (j 1).isLt
  show k3_pay1 (F := Ideal) (iblk3 V c 0 t) (iblk3 V c 1 t) (iblk3 V c 2 t) j = act (V c main_v62) b a (((cfg3.win 3).blk t).view.emb j)
  refine tile_eq_idx (iblk3 V c 0 t) (iblk3 V c 1 t) (iblk3 V c 2 t) (V c main_v62) b a j (((cfg3.win 3).blk t).view.emb j) ?_ (fun q => ?_) (fun q => ?_) ?_
  · show (V c main_v62 : S100000x128.Idx → EReal) (((cfg3.win 0).blk t).view.emb j) = (V c main_v62 : S100000x128.Idx → EReal) (((cfg3.win 3).blk t).view.emb j)
    refine congrArg (V c main_v62 : S100000x128.Idx → EReal) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  · refine Eq.trans ?_ (hb q)
    show (V c main_v63 : S1x128.Idx → EReal) (((cfg3.win 1).blk t).view.emb (ix2 (0 : Fin 1) q)) = (V c main_v63 : S1x128.Idx → EReal) (ix2 (0 : Fin 1) q)
    refine congrArg (V c main_v63 : S1x128.Idx → EReal) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · refine Eq.trans ?_ (ha q)
    show (V c main_v64 : S1x128.Idx → EReal) (((cfg3.win 2).blk t).view.emb (ix2 (0 : Fin 1) q)) = (V c main_v64 : S1x128.Idx → EReal) (ix2 (0 : Fin 1) q)
    refine congrArg (V c main_v64 : S1x128.Idx → EReal) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · show win3_3.index t (1 : Fin 2) * 128 + 1 * (j 1).val = (j 1).val
    omega

/-- An index of the output array is in point `t`'s block iff its row is among the point's 5000 rows. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v65).slice (win3_3.rect t)).set ↔ _
  rw [View.set_slice_whole, Rect.mem_set_unit]
  exact Iff.rfl

/-- The twenty blocks cover the array: row `n` is in the block of point `n / 5000`. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_3 _, ?_⟩
  rw [mem_blk]
  obtain ⟨-, -, -, -, -, -, e6, e7⟩ := idx_facts ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e6]; show (i 0).val / 5000 * 5000 ≤ (i 0).val ∧ (i 0).val < (i 0).val / 5000 * 5000 + 5000; omega
  | ⟨1, _⟩ => show win3_3.index _ (1 : Fin 2) * 128 ≤ (i 1).val ∧ (i 1).val < win3_3.index _ (1 : Fin 2) * 128 + 128; rw [e7]; omega

/-- THE RESULT ARRAY after region 3: the whole step on the input array the region finds, with the vectors its bias and
    slope arrays hold. -/
theorem final (b a : FVec Ideal S128 .f32) (c : Dev nD)
    (hb : ∀ q : Fin 128, (V c main_v63 : S1x128.Idx → EReal) (ix2 (0 : Fin 1) q) = b (ix1 q))
    (ha : ∀ q : Fin 128, (V c main_v64 : S1x128.Idx → EReal) (ix2 (0 : Fin 1) q) = a (ix1 q)) :
    (dat3 V c).arrAt 3 cfg3.N = act (V c main_v62) b a :=
  (dat3 V c).arrAt_eq_of_cover 3 (act (V c main_v62) b a) (fun t _ => flushed_eq V b a c hb ha t) cover

end Cert.KernelIdeal.Act3

end
-- ==== Proof.Chain.lean ====
/-
  From region 0's entry to the result. Each kernel region leaves in its output array one whole-array function of the
  arrays it finds (the dense product, or the bias and PReLU step); each stretch of host operations between the regions
  (gather the rows at the source indices, scale by the normalisation, scatter-add at the target indices) is the plain
  program's own stretch on the same operands. So buffer by buffer the kernel program holds the plain program's stage
  functions of the arguments, up to the result.
-/
import proofs.«145212_j14860586844771_1_alg».proof.Proof.Pre
import proofs.«145212_j14860586844771_1_alg».proof.Proof.Region0
import proofs.«145212_j14860586844771_1_alg».proof.Proof.Region1
import proofs.«145212_j14860586844771_1_alg».proof.Proof.Region2
import proofs.«145212_j14860586844771_1_alg».proof.Proof.Region3
import proofs.«145212_j14860586844771_1_alg».proof.Proof.KRun

set_option maxRecDepth 16384

noncomputable section

open Idealize.ShloMosaic Idealize.ShloMosaic.TcCoe Idealize.SL.Sem Idealize.ShloMosaic.StableHlo Idealize.ShloMosaic.ValueIdx

namespace Cert.KernelIdeal.Chain

open Cert.KernelIdeal Cert.KernelIdeal.Gen
open Cert.ReferenceIdeal.Read

variable (m : (ℓ : Loc nD τ sig) → Buf (Elt Ideal) ℓ) (ρ : Dev nD → PrngReg)

/-- No operation of the named stretch writes the buffer: each operation's result buffer is another one. -/
local macro "not_written" : tactic => `(tactic| (
  refine List.forall_iff_forall_mem.mp ?_
  simp only [hostOps0, hostOps0_1, hostOps0_2, hostOps1, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The arguments at region 0's entry -/

theorem entry_arg0 (c : Dev nD) : W3 m ρ c (Proc.devRef .tc main_arg0) = m ((c : Thread nD τ).loc main_arg0) :=
  entry_arg m ρ c main_arg0 (by not_written) (by not_written) (by not_written)
theorem entry_arg3 (c : Dev nD) : W3 m ρ c (Proc.devRef .tc main_arg3) = m ((c : Thread nD τ).loc main_arg3) :=
  entry_arg m ρ c main_arg3 (by not_written) (by not_written) (by not_written)
theorem entry_arg4 (c : Dev nD) : W3 m ρ c (Proc.devRef .tc main_arg4) = m ((c : Thread nD τ).loc main_arg4) :=
  entry_arg m ρ c main_arg4 (by not_written) (by not_written) (by not_written)
theorem entry_arg5 (c : Dev nD) : W3 m ρ c (Proc.devRef .tc main_arg5) = m ((c : Thread nD τ).loc main_arg5) :=
  entry_arg m ρ c main_arg5 (by not_written) (by not_written) (by not_written)
theorem entry_arg6 (c : Dev nD) : W3 m ρ c (Proc.devRef .tc main_arg6) = m ((c : Thread nD τ).loc main_arg6) :=
  entry_arg m ρ c main_arg6 (by not_written) (by not_written) (by not_written)
theorem entry_arg7 (c : Dev nD) : W3 m ρ c (Proc.devRef .tc main_arg7) = m ((c : Thread nD τ).loc main_arg7) :=
  entry_arg m ρ c main_arg7 (by not_written) (by not_written) (by not_written)
theorem entry_arg8 (c : Dev nD) : W3 m ρ c (Proc.devRef .tc main_arg8) = m ((c : Thread nD τ).loc main_arg8) :=
  entry_arg m ρ c main_arg8 (by not_written) (by not_written) (by not_written)

/-! ## Buffers that pass through regions and stretches untouched -/

/-- Through region 0 and the stretch after it. -/
theorem keep5 (c : Dev nD) (b : Ref sig .tc) (hr0 : ∀ w, Pipeline.arrRef spec0 w ≠ b)
    (hh1 : ∀ op ∈ (hostOps1 : List (HloOp τ sig (Elt Ideal))), (Proc.devRef .tc b : DevRef τ sig) ∉ op.writes) :
    W5 m ρ c (Proc.devRef .tc b) = W3 m ρ c (Proc.devRef .tc b) :=
  (StableHlo.after_of_forall_not_mem _ _ hh1).trans (W4_of_ne m ρ c b hr0)

/-- And on through regions 1 and 2. -/
theorem keep7 (c : Dev nD) (b : Ref sig .tc) (hr0 : ∀ w, Pipeline.arrRef spec0 w ≠ b)
    (hh1 : ∀ op ∈ (hostOps1 : List (HloOp τ sig (Elt Ideal))), (Proc.devRef .tc b : DevRef τ sig) ∉ op.writes)
    (hr1 : ∀ w, Pipeline.arrRef spec1 w ≠ b) (hr2 : ∀ w, Pipeline.arrRef spec2 w ≠ b) :
    W7 m ρ c (Proc.devRef .tc b) = W3 m ρ c (Proc.devRef .tc b) :=
  (W7_of_ne m ρ c b hr2).trans ((W6_of_ne m ρ c b hr1).trans (keep5 m ρ c b hr0 hh1))

/-! ## Region 0: the first dense product -/

theorem r0_out (c : Dev nD) : W4 m ρ c (Proc.devRef .tc main_v32)
    = val_main_v32 (F := Ideal) (m ((c : Thread nD τ).loc main_arg0)) (m ((c : Thread nD τ).loc main_arg3)) := by
  refine (W4_arr m ρ c 2).trans ((Dense0.final (V3 m ρ) c).trans ?_)
  show Dense0.prod (W3 m ρ c (Proc.devRef .tc main_arg0)) (W3 m ρ c (Proc.devRef .tc main_arg3)) = _
  rw [entry_arg0, entry_arg3]
  rfl

/-! ## The first aggregation and the bias and slope rows -/

theorem e1_agg (c : Dev nD) : W5 m ρ c (Proc.devRef .tc main_v45)
    = val_main_v45 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v45) = _
  generalize hW : W4 m ρ c = Wv
  after_results_simp
  subst hW
  rw [r0_out, W4_of_ne m ρ c main_v5 (by decide), W4_of_ne m ρ c main_v6 (by decide), W4_of_ne m ρ c main_v31 (by decide), entry_src, entry_dst, entry_norm]
  rfl

theorem e1_bias_row (c : Dev nD) (q : Fin 128) : (V5 m ρ c main_v46 : S1x128.Idx → EReal) (ix2 (0 : Fin 1) q) = (m ((c : Thread nD τ).loc main_arg4) : S128.Idx → EReal) (ix1 q) := by
  show (StableHlo.after hostOps1 (W4 m ρ c) (Proc.devRef .tc main_v46) : S1x128.Idx → EReal) (ix2 (0 : Fin 1) q) = _
  generalize hW : W4 m ρ c = Wv
  after_results_simp
  subst hW
  rw [W4_of_ne m ρ c main_arg4 (by decide), entry_arg4]
  refine (shapeCast_addUnit_apply ![128] (m ((c : Thread nD τ).loc main_arg4) : S128.Idx → EReal) shapeCasts_S128_S1x128 (ix2 (0 : Fin 1) q)).trans ?_
  exact congrArg (m ((c : Thread nD τ).loc main_arg4) : S128.Idx → EReal) (funext fun a => by match a with | ⟨0, _⟩ => rfl)

theorem e1_slope_row (c : Dev nD) (q : Fin 128) : (V5 m ρ c main_v47 : S1x128.Idx → EReal) (ix2 (0 : Fin 1) q) = (m ((c : Thread nD τ).loc main_arg5) : S128.Idx → EReal) (ix1 q) := by
  show (StableHlo.after hostOps1 (W4 m ρ c) (Proc.devRef .tc main_v47) : S1x128.Idx → EReal) (ix2 (0 : Fin 1) q) = _
  generalize hW : W4 m ρ c = Wv
  after_results_simp
  subst hW
  rw [W4_of_ne m ρ c main_arg5 (by decide), entry_arg5]
  refine (shapeCast_addUnit_apply ![128] (m ((c : Thread nD τ).loc main_arg5) : S128.Idx → EReal) shapeCasts_S128_S1x128 (ix2 (0 : Fin 1) q)).trans ?_
  exact congrArg (m ((c : Thread nD τ).loc main_arg5) : S128.Idx → EReal) (funext fun a => by match a with | ⟨0, _⟩ => rfl)

/-! ## Region 1: bias and PReLU of the first layer -/

theorem r1_out (c : Dev nD) : W6 m ρ c (Proc.devRef .tc main_v48)
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((Act1.final (V5 m ρ) (m ((c : Thread nD τ).loc main_arg4)) (m ((c : Thread nD τ).loc main_arg5)) c (e1_bias_row m ρ c) (e1_slope_row m ρ c)).trans ?_)
  show Act.act (W5 m ρ c (Proc.devRef .tc main_v45)) (m ((c : Thread nD τ).loc main_arg4)) (m ((c : Thread nD τ).loc main_arg5)) = _
  rw [e1_agg]
  rfl

/-! ## Region 2: the second dense product -/

theorem r2_out (c : Dev nD) : W7 m ρ c (Proc.devRef .tc main_v49)
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 2).trans ((Dense2.final (V6 m ρ) c).trans ?_)
  show Dense0.prod (W6 m ρ c (Proc.devRef .tc main_v48)) (W6 m ρ c (Proc.devRef .tc main_arg6)) = _
  rw [r1_out, (W6_of_ne m ρ c main_arg6 (by decide)).trans (keep5 m ρ c main_arg6 (by decide) (by not_written)), entry_arg6]
  rfl

/-! ## The second aggregation and the second bias and slope rows -/

theorem e3_agg (c : Dev nD) : W8 m ρ c (Proc.devRef .tc main_v62)
    = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W7 m ρ c) (Proc.devRef .tc main_v62) = _
  generalize hW : W7 m ρ c = Wv
  after_results_simp
  subst hW
  rw [r2_out, keep7 m ρ c main_v5 (by decide) (by not_written) (by decide) (by decide), keep7 m ρ c main_v6 (by decide) (by not_written) (by decide) (by decide),
    keep7 m ρ c main_v31 (by decide) (by not_written) (by decide) (by decide), entry_src, entry_dst, entry_norm]
  rfl

theorem e3_bias_row (c : Dev nD) (q : Fin 128) : (V8 m ρ c main_v63 : S1x128.Idx → EReal) (ix2 (0 : Fin 1) q) = (m ((c : Thread nD τ).loc main_arg7) : S128.Idx → EReal) (ix1 q) := by
  show (StableHlo.after hostOps3 (W7 m ρ c) (Proc.devRef .tc main_v63) : S1x128.Idx → EReal) (ix2 (0 : Fin 1) q) = _
  generalize hW : W7 m ρ c = Wv
  after_results_simp
  subst hW
  rw [keep7 m ρ c main_arg7 (by decide) (by not_written) (by decide) (by decide), entry_arg7]
  refine (shapeCast_addUnit_apply ![128] (m ((c : Thread nD τ).loc main_arg7) : S128.Idx → EReal) shapeCasts_S128_S1x128 (ix2 (0 : Fin 1) q)).trans ?_
  exact congrArg (m ((c : Thread nD τ).loc main_arg7) : S128.Idx → EReal) (funext fun a => by match a with | ⟨0, _⟩ => rfl)

theorem e3_slope_row (c : Dev nD) (q : Fin 128) : (V8 m ρ c main_v64 : S1x128.Idx → EReal) (ix2 (0 : Fin 1) q) = (m ((c : Thread nD τ).loc main_arg8) : S128.Idx → EReal) (ix1 q) := by
  show (StableHlo.after hostOps3 (W7 m ρ c) (Proc.devRef .tc main_v64) : S1x128.Idx → EReal) (ix2 (0 : Fin 1) q) = _
  generalize hW : W7 m ρ c = Wv
  after_results_simp
  subst hW
  rw [keep7 m ρ c main_arg8 (by decide) (by not_written) (by decide) (by decide), entry_arg8]
  refine (shapeCast_addUnit_apply ![128] (m ((c : Thread nD τ).loc main_arg8) : S128.Idx → EReal) shapeCasts_S128_S1x128 (ix2 (0 : Fin 1) q)).trans ?_
  exact congrArg (m ((c : Thread nD τ).loc main_arg8) : S128.Idx → EReal) (funext fun a => by match a with | ⟨0, _⟩ => rfl)

/-! ## Region 3: bias and PReLU of the second layer, the result -/

theorem r3_out (c : Dev nD) : W9 m ρ c (Proc.devRef .tc main_v65)
    = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ((Act3.final (V8 m ρ) (m ((c : Thread nD τ).loc main_arg7)) (m ((c : Thread nD τ).loc main_arg8)) c (e3_bias_row m ρ c) (e3_slope_row m ρ c)).trans ?_)
  show Act.act (W8 m ρ c (Proc.devRef .tc main_v62)) (m ((c : Thread nD τ).loc main_arg7)) (m ((c : Thread nD τ).loc main_arg8)) = _
  rw [e3_agg]
  rfl

/-! ## The run, read -/

/-- Every weakly fair execution of the kernel program terminates with the result array at the plain program's own
    function of the arguments, the arguments unchanged. -/
theorem run : θ_run defs (onTc (τ := τ) (main (F := Ideal))) ⟨m, fun _ => 0, ρ⟩ (fun r => ∀ c : Dev nD,
      r.2.mem ((c.tc : Thread nD τ).loc main_v65) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (r3_out m ρ c), (h c).2⟩) (run_main m ρ)

end Cert.KernelIdeal.Chain

end
-- ==== Proof.lean ====
/-
  A two-layer graph convolution with PReLU: the kernel program against its plain reference, over the extended reals.

  Both programs compute the same edge normalisation on the host (self loops appended, in-degree by a scatter-add, its
  inverse square root where positive, gathered at both ends of each edge), and in each layer gather the rows of a
  dense product at the source indices, scale them by the normalisation and scatter-add them at the target indices:
  those host operations are the same in both and are carried as the reference's own stage functions. What differs is
  where the dense work is done. The kernel program computes each layer's product x W in twenty row tiles of 5000 rows on
  the matrix unit, operands narrowed to bf16 and accumulated into zeros, and each layer's bias and PReLU
  select (y + b >= 0) (y + b) (a * (y + b)) in twenty row tiles with the bias and the slope as [1, 128] blocks; the
  reference does one dot_general and one broadcast add, compare, multiply and select on the whole [100000, 128] array.
  Over the extended reals narrowing is the identity and the product into zeros is the same sum over the contracted
  index, so every tile is the matching rows of the whole-array operation, the tiles cover the array, and region by
  region the kernel program's buffers hold the reference's stage functions of the arguments, up to the result. No
  law that needs finiteness is used, so the precondition is never opened.
-/
import proofs.«145212_j14860586844771_1_alg».proof.Defs
import proofs.«145212_j14860586844771_1_alg».proof.Proof.Gen.Kernel
import proofs.«145212_j14860586844771_1_alg».proof.Proof.Gen.Kernel.Skeleton
import proofs.«145212_j14860586844771_1_alg».proof.Proof.Gen.Kernel.Launch
import proofs.«145212_j14860586844771_1_alg».proof.Proof.Gen.Kernel.Points
import proofs.«145212_j14860586844771_1_alg».proof.Proof.Gen.Kernel.Frame
import proofs.«145212_j14860586844771_1_alg».proof.Proof.Gen.KernelIdeal
import proofs.«145212_j14860586844771_1_alg».proof.Proof.Gen.KernelIdeal.Skeleton
import proofs.«145212_j14860586844771_1_alg».proof.Proof.Gen.KernelIdeal.Launch
import proofs.«145212_j14860586844771_1_alg».proof.Proof.Gen.KernelIdeal.Points
import proofs.«145212_j14860586844771_1_alg».proof.Proof.Gen.KernelIdeal.Frame
import proofs.«145212_j14860586844771_1_alg».proof.Proof.Gen.ReferenceIdeal
import proofs.«145212_j14860586844771_1_alg».proof.Proof.Gen.ReferenceIdeal.Run
import proofs.«145212_j14860586844771_1_alg».proof.Proof.Gen.ReferenceIdeal.Read
import proofs.«145212_j14860586844771_1_alg».proof.Proof.Gen.Pre_finite_inputs
import proofs.«145212_j14860586844771_1_alg».proof.Proof.Chain
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the reference's function of
    the arguments: the kernel program region by region, the reference by its own run. -/
theorem algebraic : Cert.algebraic_KernelIdeal_ReferenceIdeal := by
  intro m ρ m' ρ' _ hagree
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v77_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
